-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x512 : Shape := ⟨3, ![32, 4096, 512]⟩
abbrev S512x512 : Shape := ⟨2, ![512, 512]⟩
abbrev S512 : Shape := ⟨1, ![512]⟩
abbrev S_ : Shape := ⟨0, ![]⟩

class Facts : Prop where
  bcast_S_S32x4096x512 : S_.BroadcastsInDim S32x4096x512 (![] : Fin 0 → Fin S32x4096x512.rank)
  reducesTo_S32x4096x512_S_d0_1_2 : S32x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S32x4096x512 .f32) (main_arg1 : FVec F S512x512 .f32) (main_arg2 : FVec F S512 .f32) : IVec S_ 1 :=
  let main_v0 : FVec F S32x4096x512 .f32 := Host.absf main_arg0
  let main_cst : FVec F S_ .f32 := constant S_ .f32 0x7F800000#32
  let main_v1 : FVec F S32x4096x512 .f32 := broadcastInDim S32x4096x512 ![] bcast_S_S32x4096x512 main_cst
  let main_v2 : IVec S32x4096x512 1 := cmpf .olt main_v0 main_v1
  let main_c : IVec S_ 1 := constantI S_ 1 1#1
  let main_v3 : IVec S_ 1 := (fun x v => Host.reduce IntOp.andi x v reducesTo_S32x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S32x4096x512 : Shape := ⟨3, ![32, 4096, 512]⟩
abbrev S512x512 : Shape := ⟨2, ![512, 512]⟩
abbrev S512 : Shape := ⟨1, ![512]⟩
abbrev S131072x512 : Shape := ⟨2, ![131072, 512]⟩
abbrev S1x512 : Shape := ⟨2, ![1, 512]⟩
abbrev S2048x512 : Shape := ⟨2, ![2048, 512]⟩

abbrev nBuf : Space → Nat
  | .hbm => 7
  | .vmem => 6
  | .smem => 0
  | _ => 0

abbrev bufTy : (tb : Table) → Fin (tcTables nBuf tb) → BufTy
  | .hbm, ⟨0, _⟩ => ⟨S32x4096x512, .f32⟩
  | .hbm, ⟨1, _⟩ => ⟨S512x512, .f32⟩
  | .hbm, ⟨2, _⟩ => ⟨S512, .f32⟩
  | .hbm, ⟨3, _⟩ => ⟨S131072x512, .f32⟩
  | .hbm, ⟨4, _⟩ => ⟨S1x512, .f32⟩
  | .hbm, ⟨5, _⟩ => ⟨S131072x512, .f32⟩
  | .hbm, ⟨6, _⟩ => ⟨S32x4096x512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S32x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x4096x512_S131072x512 : S32x4096x512.ShapeCasts S131072x512
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S131072x512_S32x4096x512 : S131072x512.ShapeCasts S32x4096x512
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S131072x512.size a
  hwx0_3 : ∀ i : grid0.Coords, EltTy.bits .f32 = 32 ∨ (Rect.block (s := S131072x512) S2048x512.size (cc0_transform_3 i) (hinb0_3 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x4096x512 : Shape := ⟨3, ![32, 4096, 512]⟩
abbrev S512x512 : Shape := ⟨2, ![512, 512]⟩
abbrev S512 : Shape := ⟨1, ![512]⟩
abbrev S1x1x512 : Shape := ⟨3, ![1, 1, 512]⟩

abbrev nBuf : Space → Nat
  | .hbm => 7
  | .vmem => 0
  | .smem => 0
  | _ => 0

abbrev bufTy : (tb : Table) → Fin (tcTables nBuf tb) → BufTy
  | .hbm, ⟨0, _⟩ => ⟨S32x4096x512, .f32⟩
  | .hbm, ⟨1, _⟩ => ⟨S512x512, .f32⟩
  | .hbm, ⟨2, _⟩ => ⟨S512, .f32⟩
  | .hbm, ⟨3, _⟩ => ⟨S32x4096x512, .f32⟩
  | .hbm, ⟨4, _⟩ => ⟨S1x1x512, .f32⟩
  | .hbm, ⟨5, _⟩ => ⟨S32x4096x512, .f32⟩
  | .hbm, ⟨6, _⟩ => ⟨S32x4096x512, .f32⟩
  | _, _ => ⟨S32x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x4096x512_0_1_2 : S1x1x512.BroadcastsInDim S32x4096x512 (![0, 1, 2] : Fin 3 → Fin S32x4096x512.rank)
  dot_S32x4096x512_S512x512_S32x4096x512_2_1_01_0_n_n_wf : DotDims.WF S32x4096x512 S512x512 S32x4096x512 [2] [1] [0, 1] [0] [] []

variable [Facts₀]

def dot_S32x4096x512_S512x512_S32x4096x512_2_1_01_0_n_n : DotDims S32x4096x512 S512x512 S32x4096x512 where
  lhsContracting := [2]
  rhsContracting := [1]
  lhsNonContracting := [0, 1]
  rhsNonContracting := [0]
  lhsBatch := []
  rhsBatch := []
  wf := dot_S32x4096x512_S512x512_S32x4096x512_2_1_01_0_n_n_wf

class Facts : Prop extends Facts₀ where

variable [Facts]
-- ==== Proof.Payload.lean ====
/-
  The body's one stored value, read at an index.

  At the ideal instance the body stores, at row p and column q of its 2048 x 512 block,
      (sum over k < 512 of  xblk[p, k] * w[q, k])  +  brow[0, q] :
  the two changes of float format are the identity there, the matrix product into a zero
  accumulator is the plain sum over the contracted axis (axis 1 of both operands), and the
  bias row is broadcast down the rows.
-/
import proofs.«159500_j6571299963235_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Linear

open Cert.KernelIdeal Cert.KernelIdeal.Gen Idealize.ShloMosaic Idealize.ShloMosaic.ValueIdx

/-! ## The product's operand indices, axis by axis

The left operand is read at (row of the output, k), the right operand at (column of the
output, k): both contract their axis 1. -/

theorem lhs_axis0 (j : S2048x512.Idx) (q : dot_S2048x512_S512x512_S2048x512_1_1_0_0_n_n.contr.Idx) :
    (dot_S2048x512_S512x512_S2048x512_1_1_0_0_n_n.lhsIdx j q 0).val = (j 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl

theorem lhs_axis1 (j : S2048x512.Idx) (q : dot_S2048x512_S512x512_S2048x512_1_1_0_0_n_n.contr.Idx) :
    (dot_S2048x512_S512x512_S2048x512_1_1_0_0_n_n.lhsIdx j q 1).val = (q ⟨0, by decide⟩).val :=
  dot_S2048x512_S512x512_S2048x512_1_1_0_0_n_n.lhsIdx_val_of_single rfl j q

theorem rhs_axis0 (j : S2048x512.Idx) (q : dot_S2048x512_S512x512_S2048x512_1_1_0_0_n_n.contr.Idx) :
    (dot_S2048x512_S512x512_S2048x512_1_1_0_0_n_n.rhsIdx j q 0).val = (j 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl

theorem rhs_axis1 (j : S2048x512.Idx) (q : dot_S2048x512_S512x512_S2048x512_1_1_0_0_n_n.contr.Idx) :
    (dot_S2048x512_S512x512_S2048x512_1_1_0_0_n_n.rhsIdx j q 1).val = (q ⟨0, by decide⟩).val :=
  dot_S2048x512_S512x512_S2048x512_1_1_0_0_n_n.rhsIdx_val_of_single rfl j q

/-! ## The product at an index -/

/-- The block's matrix product into the zero accumulator, at (p, q): the sum over k of
    lhs[p, k] * rhs[q, k]. -/
theorem product_apply (a : FVec Ideal S2048x512 .bf16) (b : FVec Ideal S512x512 .bf16) (p : Fin 2048) (q : Fin 512) :
    matmul (F := Ideal) dot_S2048x512_S512x512_S2048x512_1_1_0_0_n_n none a b (constant (F := Ideal) S2048x512 .f32 0x00000000#32) (ix2 p q)
      = ∑ k : Fin 512, a (ix2 p k) * b (ix2 q k) := by
  unfold matmul
  rw [Ideal.matmul_constant_zero_apply, ← Equiv.sum_comp (contrEquiv1 dot_S2048x512_S512x512_S2048x512_1_1_0_0_n_n 512 rfl rfl).symm]
  refine Finset.sum_congr rfl fun k _ => ?_
  have hk := contrEquiv1_symm_val dot_S2048x512_S512x512_S2048x512_1_1_0_0_n_n 512 rfl rfl k
  have el : dot_S2048x512_S512x512_S2048x512_1_1_0_0_n_n.lhsIdx (ix2 p q) ((contrEquiv1 dot_S2048x512_S512x512_S2048x512_1_1_0_0_n_n 512 rfl rfl).symm k) = ix2 p k := funext fun ax => Fin.ext (by
    match ax with
    | ⟨0, _⟩ => exact lhs_axis0 _ _
    | ⟨1, _⟩ => exact (lhs_axis1 _ _).trans hk)
  have er : dot_S2048x512_S512x512_S2048x512_1_1_0_0_n_n.rhsIdx (ix2 p q) ((contrEquiv1 dot_S2048x512_S512x512_S2048x512_1_1_0_0_n_n 512 rfl rfl).symm k) = ix2 q k := funext fun ax => Fin.ext (by
    match ax with
    | ⟨0, _⟩ => exact rhs_axis0 _ _
    | ⟨1, _⟩ => exact (rhs_axis1 _ _).trans hk)
  rw [el, er]

/-! ## The stored value at an index -/

/-- What the body stores at (p, q) of its block, from the three blocks it loaded. -/
theorem stored_apply (x0 : Vec Ideal S2048x512 .f32) (x1 : Vec Ideal S512x512 .f32) (x2 : Vec Ideal S1x512 .f32)
    (p : Fin 2048) (q : Fin 512) :
    k0_pay1 (F := Ideal) x0 x1 x2 (ix2 p q) = (∑ k : Fin 512, x0 (ix2 p k) * x1 (ix2 q k)) + x2 (ix2 (0 : Fin 1) q) := by
  unfold k0_pay1
  rw [addf_apply, product_apply, shapeCast_self, shapeCast_self, broadcastTo_1b_ab_apply]
  rfl

end Cert.KernelIdeal.Linear

end
-- ==== Proof.Spec.lean ====
/-
  What both programs compute, as one function of the three argument arrays.

  x : [32, 4096, 512], w : [512, 512] (out-features by in-features), b : [512].
      batchLinear x w b [a, t, o] = (sum over k < 512 of x[a, t, k] * w[o, k]) + b[o].
  The kernel works on the flattened rows r = a * 4096 + t of x (a [131072, 512] array) and on
  the bias as a one-row array [1, 512]:
      rowsLinear x' w b' [r, o] = (sum over k < 512 of x'[r, k] * w[o, k]) + b'[0, o],
  and un-flattening rowsLinear of the flattened arguments gives batchLinear back
  (rows_eq_batch): a reshape only renames indices in row-major order.
-/
import Idealize.ShloMosaic.PureOps.Ideal
import Idealize.ShloMosaic.Lib.Pipeline.Value
import Idealize.ShloMosaic.Lib.ValueIdx
import Idealize.ShloMosaic.Lib.ValueLayout

noncomputable section

open scoped BigOperators

namespace Cert.LinearSpec

open Idealize.ShloMosaic Idealize.ShloMosaic.ValueIdx

abbrev SBatch : Shape := ⟨3, ![32, 4096, 512]⟩
abbrev SRows : Shape := ⟨2, ![131072, 512]⟩
abbrev SWeight : Shape := ⟨2, ![512, 512]⟩
abbrev SBias : Shape := ⟨1, ![512]⟩
abbrev SBiasRow : Shape := ⟨2, ![1, 512]⟩

/-- x @ wᵀ + b over the batch: entry (a, t, o) contracts x[a, t, ·] with w[o, ·] and adds b[o]. -/
def batchLinear (x : SBatch.Idx → EReal) (w : SWeight.Idx → EReal) (b : SBias.Idx → EReal) : SBatch.Idx → EReal :=
  fun i => (∑ k : Fin 512, x (ix3 (i 0) (i 1) k) * w (ix2 (i 2) k)) + b (ix1 (i 2))

/-- The same over flattened rows, the bias given as a one-row array. -/
def rowsLinear (x : SRows.Idx → EReal) (w : SWeight.Idx → EReal) (b : SBiasRow.Idx → EReal) : SRows.Idx → EReal :=
  fun j => (∑ k : Fin 512, x (ix2 (j 0) k) * w (ix2 (j 1) k)) + b (ix2 (0 : Fin 1) (j 1))

/-- The flattened row of batch entry a, position t. -/
def flatRow (a : Fin 32) (t : Fin 4096) : Fin 131072 := ⟨a.val * 4096 + t.val, by omega⟩

/-- Flattening [32, 4096, 512] to [131072, 512] reads row a * 4096 + t from (a, t). -/
theorem flatten_apply {α : Type} (x : SBatch.Idx → α) (h : SBatch.ShapeCasts SRows) (a : Fin 32) (t : Fin 4096) (k : Fin 512) :
    shapeCast SRows x h (ix2 (flatRow a t) k) = x (ix3 a t k) :=
  shapeCast_apply x h _ _ (by
    rw [Shape.rowMajor_val_three, Shape.rowMajor_val_two]
    rfl)

/-- Un-flattening [131072, 512] to [32, 4096, 512] reads (a, t) from row a * 4096 + t. -/
theorem unflatten_apply {α : Type} (y : SRows.Idx → α) (h : SRows.ShapeCasts SBatch) (a : Fin 32) (t : Fin 4096) (o : Fin 512) :
    shapeCast SBatch y h (ix3 a t o) = y (ix2 (flatRow a t) o) :=
  shapeCast_apply y h _ _ (by
    rw [Shape.rowMajor_val_three, Shape.rowMajor_val_two]
    rfl)

/-- The rows form of the flattened arguments, un-flattened, is the batch form. -/
theorem rows_eq_batch (x : SBatch.Idx → EReal) (w : SWeight.Idx → EReal) (b : SBias.Idx → EReal)
    (h1 : SBatch.ShapeCasts SRows) (h2 : SBias.ShapeCasts SBiasRow) (h3 : SRows.ShapeCasts SBatch) :
    shapeCast SBatch (rowsLinear (shapeCast SRows x h1) w (shapeCast SBiasRow b h2)) h3 = batchLinear x w b := by
  funext i
  obtain ⟨a, t, o, rfl⟩ : ∃ (a : Fin 32) (t : Fin 4096) (o : Fin 512), i = ix3 a t o := ⟨i 0, i 1, i 2, eq_ix3 i⟩
  rw [unflatten_apply]
  show (∑ k : Fin 512, shapeCast SRows x h1 (ix2 (flatRow a t) k) * w (ix2 o k)) + shapeCast SBiasRow b h2 (ix2 (0 : Fin 1) o)
    = (∑ k : Fin 512, x (ix3 a t k) * w (ix2 o k)) + b (ix1 o)
  rw [shapeCast_a_1a_apply]
  exact congrArg (· + b (ix1 o)) (Finset.sum_congr rfl fun k _ => by rw [flatten_apply])

end Cert.LinearSpec

end
-- ==== Proof.Blocks.lean ====
/-
  The kernel's output array after the region.

  Grid point t (of 64) loads rows t * 2048 .. t * 2048 + 2047 of the flattened input, the whole
  weight and the one-row bias, and writes back rows t * 2048 .. of the output.  Each written block is
  therefore the same block of ONE function of the three arrays, rowsLinear; the 64 blocks tile the
  131072 rows, so after the region the output array is rowsLinear of the arrays the region found.
-/
import proofs.«159500_j6571299963235_1_alg».proof.Proof.Gen.KernelIdeal.Frame
import proofs.«159500_j6571299963235_1_alg».proof.Proof.Payload
import proofs.«159500_j6571299963235_1_alg».proof.Proof.Spec
import Idealize.ShloMosaic.Lib.Pipeline.Value

set_option maxRecDepth 16384

noncomputable section

namespace Cert.KernelIdeal.Linear

open Cert.KernelIdeal Cert.KernelIdeal.Gen Idealize.ShloMosaic Idealize.ShloMosaic.TcCoe Idealize.SL.Sem
open Idealize.ShloMosaic.ValueIdx Cert.LinearSpec
open Idealize.ShloMosaic.Pipeline (Dat)

variable (m : (ℓ : Loc nD τ sig) → Buf (Elt Ideal) ℓ)

/-- The flattened input, the weight and the one-row bias as the region finds them. -/
abbrev rowsArr (c : Dev nD) : Vec Ideal S131072x512 .f32 := V m c main_v0
abbrev weightArr (c : Dev nD) : Vec Ideal S512x512 .f32 := V m c main_arg1
abbrev biasRowArr (c : Dev nD) : Vec Ideal S1x512 .f32 := V m c main_v1

theorem origin2 : (![0, 0] : Fin 2 → Nat) = fun _ => 0 := funext fun a => by fin_cases a <;> rfl

/-- The block indices at point t: the input rows and the output rows are block t, everything else block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of a written block: if the loaded pieces are the arrays read at row r (for the input
    rows), unmoved (for the weight and the bias), the stored value at (p, q) is rowsLinear at (r, q). -/
theorem block_value (X : Vec Ideal S131072x512 .f32) (W : Vec Ideal S512x512 .f32) (Bv : Vec Ideal S1x512 .f32)
    (x0 : Vec Ideal S2048x512 .f32) (x1 : Vec Ideal S512x512 .f32) (x2 : Vec Ideal S1x512 .f32)
    (p : Fin 2048) (q : Fin 512) (r : Fin 131072)
    (h0 : ∀ k : Fin 512, x0 (ix2 p k) = X (ix2 r k)) (h1 : ∀ k : Fin 512, x1 (ix2 q k) = W (ix2 q k))
    (h2 : x2 (ix2 (0 : Fin 1) q) = Bv (ix2 (0 : Fin 1) q)) :
    k0_pay1 (F := Ideal) x0 x1 x2 (ix2 p q) = rowsLinear X W Bv (ix2 r q) := by
  rw [stored_apply, h2]
  show _ = (∑ k : Fin 512, X (ix2 r k) * W (ix2 q k)) + Bv (ix2 (0 : Fin 1) q)
  exact congrArg (· + Bv (ix2 (0 : Fin 1) q)) (Finset.sum_congr rfl fun k _ => by rw [h0 k, h1 k])

/-- What point t writes back is block t of rowsLinear of the arrays as the region finds them. -/
theorem flushed_eq (c : Dev nD) (t : Fin cfg0.N) :
    (dats m 0 c).flushed 3 t
      = ((cfg0.win 3).blk t).view.read (Elt Ideal) (rowsLinear (rowsArr m c) (weightArr m c) (biasRowArr m c)) := by
  show (cfg0.win 3).cut (grid0.coords t) ((dats m 0 c).after 3 t) = _
  rw [after0_3]
  unfold out0_3
  rw [View.canon_unit_zero origin2]
  simp only [View.ld_unit_zero (S := S2048x512) origin2, View.ld_unit_zero (S := S512x512) origin2, View.ld_unit_zero (S := S1x512) origin2]
  obtain ⟨e00, e01, e10, e11, e20, e21, e30, e31⟩ := index_facts t
  funext j
  have hj0 : (j 0).val < 2048 := (j 0).isLt
  have hj1 : (j 1).val < 512 := (j 1).isLt
  have ht : t.val < 64 := t.isLt
  have hin : (win0 3).xinj (grid0.coords t) j = ix2 (⟨(j 0).val, hj0⟩ : Fin 2048) (⟨(j 1).val, hj1⟩ : Fin 512) :=
    funext fun a => by match a with | ⟨0, _⟩ => rfl | ⟨1, _⟩ => rfl
  have hout : ((cfg0.win 3).blk t).view.emb j
      = ix2 (⟨t.val * 2048 + (j 0).val, by omega⟩ : Fin 131072) (⟨(j 1).val, hj1⟩ : Fin 512) := by
    funext a; apply Fin.ext
    match a with
    | ⟨0, _⟩ => show win0_3.index t (0 : Fin 2) * 2048 + 1 * (j 0).val = t.val * 2048 + (j 0).val; omega
    | ⟨1, _⟩ => show win0_3.index t (1 : Fin 2) * 512 + 1 * (j 1).val = (j 1).val; omega
  show k0_pay1 (F := Ideal) (iblk m c 0 t) (iblk m c 1 t) (iblk m c 2 t) ((win0 3).xinj (grid0.coords t) j)
    = rowsLinear (rowsArr m c) (weightArr m c) (biasRowArr m c) (((cfg0.win 3).blk t).view.emb j)
  rw [hin, hout]
  refine block_value (rowsArr m c) (weightArr m c) (biasRowArr m c) (iblk m c 0 t) (iblk m c 1 t) (iblk m c 2 t)
    (⟨(j 0).val, hj0⟩ : Fin 2048) (⟨(j 1).val, hj1⟩ : Fin 512) (⟨t.val * 2048 + (j 0).val, by omega⟩ : Fin 131072)
    (fun k => ?_) (fun k => ?_) ?_
  · show V m c main_v0 (((cfg0.win 0).blk t).view.emb (ix2 (⟨(j 0).val, hj0⟩ : Fin 2048) k))
      = V m c main_v0 (ix2 (⟨t.val * 2048 + (j 0).val, by omega⟩ : Fin 131072) k)
    refine congrArg (V m c main_v0) (funext fun a => Fin.ext ?_)
    match a with
    | ⟨0, _⟩ => show win0_0.index t (0 : Fin 2) * 2048 + 1 * (j 0).val = t.val * 2048 + (j 0).val; omega
    | ⟨1, _⟩ => show win0_0.index t (1 : Fin 2) * 512 + 1 * k.val = k.val; omega
  · show V m c main_arg1 (((cfg0.win 1).blk t).view.emb (ix2 (⟨(j 1).val, hj1⟩ : Fin 512) k))
      = V m c main_arg1 (ix2 (⟨(j 1).val, hj1⟩ : Fin 512) k)
    refine congrArg (V m c main_arg1) (funext fun a => Fin.ext ?_)
    match a with
    | ⟨0, _⟩ => show win0_1.index t (0 : Fin 2) * 512 + 1 * (j 1).val = (j 1).val; omega
    | ⟨1, _⟩ => show win0_1.index t (1 : Fin 2) * 512 + 1 * k.val = k.val; omega
  · show V m c main_v1 (((cfg0.win 2).blk t).view.emb (ix2 (0 : Fin 1) (⟨(j 1).val, hj1⟩ : Fin 512)))
      = V m c main_v1 (ix2 (0 : Fin 1) (⟨(j 1).val, hj1⟩ : Fin 512))
    refine congrArg (V m c main_v1) (funext fun a => Fin.ext ?_)
    match a with
    | ⟨0, _⟩ => show win0_2.index t (0 : Fin 2) * 1 + 1 * 0 = 0; omega
    | ⟨1, _⟩ => show win0_2.index t (1 : Fin 2) * 512 + 1 * (j 1).val = (j 1).val; omega

/-- An index of the output array lies in point t's block iff each coordinate lies in the block's range. -/
theorem mem_block (t : Fin cfg0.N) (i : S131072x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v2).slice (win0_3.rect t)).set ↔ _
  rw [View.set_slice_whole, Rect.mem_set_unit]
  exact Iff.rfl

/-- Every row r of the output lies in the block of point r / 2048, which writes back. -/
theorem covered (i : S131072x512.Idx) :
    ∃ t : Fin cfg0.N, (cfg0.win 3).flush t = true ∧ i ∈ ((cfg0.win 3).blk t).view.set := by
  have hi0 : (i 0).val < 131072 := (i 0).isLt
  have hi1 : (i 1).val < 512 := (i 1).isLt
  have hN : cfg0.N = 64 := N_0
  obtain ⟨t, htv⟩ : ∃ t : Fin cfg0.N, t.val = (i 0).val / 2048 := ⟨⟨(i 0).val / 2048, by rw [hN]; omega⟩, rfl⟩
  obtain ⟨-, -, -, -, -, -, e30, e31⟩ := index_facts t
  refine ⟨t, flush0_3 t, ?_⟩
  rw [mem_block]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 512 ≤ (i 1).val ∧ (i 1).val < win0_3.index t (1 : Fin 2) * 512 + 512
    omega

/-- After the region the output array is rowsLinear of the arrays the region found. -/
theorem out_array (c : Dev nD) :
    (dats m 0 c).arrAt 3 cfg0.N = rowsLinear (rowsArr m c) (weightArr m c) (biasRowArr m c) :=
  (dats m 0 c).arrAt_eq_of_cover 3 (rowsLinear (rowsArr m c) (weightArr m c) (biasRowArr m c))
    (fun t _ => flushed_eq m c t) covered

end Cert.KernelIdeal.Linear

end
-- ==== Proof.KernelRun.lean ====
/-
  The kernel program's run, read as a value.

  Before the region the host flattens x to [131072, 512] and lays the bias out as one row [1, 512];
  the region leaves rowsLinear of these in its output array; after the region the host un-flattens
  that array to [32, 4096, 512].  By rows_eq_batch the result is batchLinear of the three arguments.
-/
import proofs.«159500_j6571299963235_1_alg».proof.Proof.Blocks

set_option maxRecDepth 16384

noncomputable section

namespace Cert.KernelIdeal.Linear

open Cert.KernelIdeal Cert.KernelIdeal.Gen Idealize.ShloMosaic Idealize.ShloMosaic.TcCoe Idealize.SL.Sem
open Idealize.ShloMosaic.ValueIdx Cert.LinearSpec
open Idealize.ShloMosaic.Pipeline (Dat)

variable (m : (ℓ : Loc nD τ sig) → Buf (Elt Ideal) ℓ) (ρ : Dev nD → PrngReg)

/-- The region finds x flattened, -/
theorem rows_found (c : Dev nD) :
    rowsArr m c = shapeCast S131072x512 (m ((c : Thread nD τ).loc main_arg0)) shapeCasts_S32x4096x512_S131072x512 := by
  show StableHlo.after hostOps0 (fun b => m (c, b)) (Proc.devRef .tc main_v0) = _
  after_results
  rfl

/-- the bias as one row, -/
theorem bias_found (c : Dev nD) :
    biasRowArr m c = shapeCast S1x512 (m ((c : Thread nD τ).loc main_arg2)) shapeCasts_S512_S1x512 := by
  show StableHlo.after hostOps0 (fun b => m (c, b)) (Proc.devRef .tc main_v1) = _
  after_results
  rfl

/-- and the weight as launched. -/
theorem weight_found (c : Dev nD) : weightArr m c = m ((c : Thread nD τ).loc main_arg1) := V_main_arg1 m c

/-- The result buffer after the host's last reshape. -/
theorem result_eq (c : Dev nD) :
    Pipeline.afterTail₀ cfgs (dats m) 0 (V0 m) [hostOps1] c main_v3
      = batchLinear (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  have harr : Pipeline.withArrays (cfgs 0).spec c (V0 m c) (fun w => (dats m 0 c).arrAt w (cfgs 0).N) (Proc.devRef .tc main_v2)
      = rowsLinear (rowsArr m c) (weightArr m c) (biasRowArr m c) :=
    (Pipeline.withArrays_arr spec0 launch0.win.arr_inj c _ _ 3).trans (out_array m c)
  refine Eq.trans (?_ : _ = shapeCast S32x4096x512 (rowsLinear (rowsArr m c) (weightArr m c) (biasRowArr m c))
    shapeCasts_S131072x512_S32x4096x512) ?_
  · rw [← harr]; rfl
  · rw [rows_found, bias_found, weight_found]
    exact rows_eq_batch _ _ _ _ _ _

/-- Every weakly fair execution of the idealized kernel program terminates with the result buffer at
    batchLinear of the three arguments, and the arguments as launched. -/
theorem run : θ_run defs (onTc (τ := τ) (main (F := Ideal))) ⟨m, fun _ => 0, ρ⟩ (fun r => ∀ c : Dev nD,
      r.2.mem ((c.tc : Thread nD τ).loc main_v3)
        = batchLinear (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Linear

end
-- ==== Proof.RefValue.lean ====
/-
  The reference computes batchLinear.

  Its four host operations are: the contraction of x's last axis with w's last axis
  (entry (a, t, o) = sum over k of x[a, t, k] * w[o, k]), the bias broadcast first to [1, 1, 512]
  and then to [32, 4096, 512] (entry (a, t, o) = b[o]), and their sum.
-/
import proofs.«159500_j6571299963235_1_alg».proof.Proof.Gen.ReferenceIdeal.Read
import proofs.«159500_j6571299963235_1_alg».proof.Proof.Spec

noncomputable section

namespace Cert.ReferenceIdeal.Linear

open Cert.ReferenceIdeal Cert.ReferenceIdeal.Gen Cert.ReferenceIdeal.Read
open Idealize.ShloMosaic Idealize.ShloMosaic.ValueIdx Cert.LinearSpec

/-- The contraction reads x at (a, t, k) -/
theorem left_index (i : S32x4096x512.Idx) (k : Fin 512) : lidx_main_v0 i k = ix3 (i 0) (i 1) k :=
  funext fun a => Fin.ext (by match a with | ⟨0, _⟩ => rfl | ⟨1, _⟩ => rfl | ⟨2, _⟩ => rfl)

/-- and w at (o, k). -/
theorem right_index (i : S32x4096x512.Idx) (k : Fin 512) : ridx_main_v0 i k = ix2 (i 2) k :=
  funext fun a => Fin.ext (by match a with | ⟨0, _⟩ => rfl | ⟨1, _⟩ => rfl)

/-- The two broadcasts read b at o. -/
theorem bias_index (i : S32x4096x512.Idx) : idx_main_v1 (idx_main_v2 i) = ix1 (i 2) :=
  funext fun a => Fin.ext (by match a with | ⟨0, _⟩ => rfl)

/-- The reference's result, as a function of its three arguments, is batchLinear. -/
theorem reference_eq (x : FVec Ideal S32x4096x512 .f32) (w : FVec Ideal S512x512 .f32) (b : FVec Ideal S512 .f32) :
    val_main_v3 (F := Ideal) x w b = batchLinear x w b := by
  funext i
  rw [val_main_v3_apply, val_main_v0_apply, val_main_v2_apply, val_main_v1_apply]
  simp only [left_index, right_index, bias_index]
  rfl

end Cert.ReferenceIdeal.Linear

end
-- ==== Proof.lean ====
/-
  The certificate: a fused linear layer, out = x @ weightᵀ + bias, with x : [32, 4096, 512],
  weight : [512, 512] and bias : [512].

  The kernel flattens x to 131072 rows, processes 2048 rows per grid point (64 points), and inside
  each point forms the product of the row block with the weight's transpose (both operands narrowed
  to a 16-bit float format first) into a zero accumulator, adds the bias row, and stores the block; the host
  then restores the [32, 4096, 512] layout.  The reference contracts x's last axis with weight's last
  axis and adds the broadcast bias.

  Over the extended reals the narrowing is the identity and the product into a zero accumulator is
  the plain sum over the contracted axis, so both programs compute, at (a, t, o),
      (sum over k < 512 of x[a, t, k] * weight[o, k]) + bias[o]
  (Spec.lean's batchLinear).  The two sums are literally the same sum in the same order: no law of
  arithmetic beyond renaming indices is used, and the finiteness of the inputs is never opened.

  Payload.lean reads the body's stored value at an index; Blocks.lean shows every written block is a
  block of one function of the arrays and that the blocks tile the output; KernelRun.lean carries this
  through the host's reshapes before and after the region; RefValue.lean reads the reference.  The
  kernel programs' termination and the preservation of the arguments come from the generated frame
  modules, the reference's from its generated run.  The idealization rewrote nothing, so the
  idealized kernel is the kernel's own text and that conjunct is trivial.
-/
import proofs.«159500_j6571299963235_1_alg».proof.Defs
import proofs.«159500_j6571299963235_1_alg».proof.Proof.Gen.Kernel
import proofs.«159500_j6571299963235_1_alg».proof.Proof.Gen.Kernel.Skeleton
import proofs.«159500_j6571299963235_1_alg».proof.Proof.Gen.Kernel.Launch
import proofs.«159500_j6571299963235_1_alg».proof.Proof.Gen.Kernel.Points
import proofs.«159500_j6571299963235_1_alg».proof.Proof.Gen.Kernel.Frame
import proofs.«159500_j6571299963235_1_alg».proof.Proof.Gen.KernelIdeal
import proofs.«159500_j6571299963235_1_alg».proof.Proof.Gen.KernelIdeal.Skeleton
import proofs.«159500_j6571299963235_1_alg».proof.Proof.Gen.KernelIdeal.Launch
import proofs.«159500_j6571299963235_1_alg».proof.Proof.Gen.KernelIdeal.Points
import proofs.«159500_j6571299963235_1_alg».proof.Proof.Gen.KernelIdeal.Frame
import proofs.«159500_j6571299963235_1_alg».proof.Proof.Gen.ReferenceIdeal
import proofs.«159500_j6571299963235_1_alg».proof.Proof.Gen.Pre_finite_inputs
import proofs.«159500_j6571299963235_1_alg».proof.Proof.Gen.ReferenceIdeal.Run
import proofs.«159500_j6571299963235_1_alg».proof.Proof.Gen.ReferenceIdeal.Read
import proofs.«159500_j6571299963235_1_alg».proof.Proof.KernelRun
import proofs.«159500_j6571299963235_1_alg».proof.Proof.RefValue
import Idealize.ShloMosaic.Adequacy
import Idealize.ShloMosaic.Init

noncomputable section

namespace Cert.Proof

open Idealize.ShloMosaic Idealize.SL.Sem

/-- The kernel program terminates, without a fault, and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x, weight and bias, both programs end with their result buffer at
    batchLinear of those three arrays. -/
theorem algebraic : Cert.algebraic_KernelIdeal_ReferenceIdeal := by
  intro m ρ m' ρ' _ hagree
  refine ⟨_, Cert.KernelIdeal.Linear.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Linear.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
